-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S64x512x512x3 : Shape := ⟨4, ![64, 512, 512, 3]⟩
abbrev S4096x4 : Shape := ⟨2, ![4096, 4]⟩
abbrev S_ : Shape := ⟨0, ![]⟩

class Facts : Prop where

variable [Facts]

def fn {F : FTy → Type} [FloatOps F] (main_arg0 : IVec S64x512x512x3 32) (main_arg1 : IVec S4096x4 32) : IVec S_ 1 :=
  let main_c : IVec S_ 1 := constantI S_ 1 1#1
  main_c
-- ==== Kernel.lean ====
abbrev S64x512x512x3 : Shape := ⟨4, ![64, 512, 512, 3]⟩
abbrev S4096x4 : Shape := ⟨2, ![4096, 4]⟩
abbrev S4096x1 : Shape := ⟨2, ![4096, 1]⟩
abbrev S4096 : Shape := ⟨1, ![4096]⟩
abbrev S_ : Shape := ⟨0, ![]⟩
abbrev S512x512x3 : Shape := ⟨3, ![512, 512, 3]⟩
abbrev S4096x3 : Shape := ⟨2, ![4096, 3]⟩
abbrev S64x512x1536 : Shape := ⟨3, ![64, 512, 1536]⟩
abbrev S512x1536 : Shape := ⟨2, ![512, 1536]⟩
abbrev S8x128x1536 : Shape := ⟨3, ![8, 128, 1536]⟩
abbrev S128x1536 : Shape := ⟨2, ![128, 1536]⟩
abbrev S1x128x1536 : Shape := ⟨3, ![1, 128, 1536]⟩

abbrev nBuf : Space → Nat
  | .hbm => 45
  | .vmem => 6
  | .smem => 0
  | _ => 0

abbrev bufTy : (tb : Table) → Fin (tcTables nBuf tb) → BufTy
  | .hbm, ⟨0, _⟩ => ⟨S64x512x512x3, .i32⟩
  | .hbm, ⟨1, _⟩ => ⟨S4096x4, .i32⟩
  | .hbm, ⟨2, _⟩ => ⟨S4096x1, .i32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S4096x1, .i32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S512x512x3, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S4096x3, .i32⟩
  | .hbm, ⟨40, _⟩ => ⟨S512x512x3, .i32⟩
  | .hbm, ⟨41, _⟩ => ⟨S64x512x1536, .i32⟩
  | .hbm, ⟨42, _⟩ => ⟨S512x1536, .i32⟩
  | .hbm, ⟨43, _⟩ => ⟨S64x512x1536, .i32⟩
  | .hbm, ⟨44, _⟩ => ⟨S64x512x512x3, .i32⟩
  | .local _ .vmem, ⟨0, _⟩ => ⟨S8x128x1536, .i32⟩
  | .local _ .vmem, ⟨1, _⟩ => ⟨S8x128x1536, .i32⟩
  | .local _ .vmem, ⟨2, _⟩ => ⟨S128x1536, .i32⟩
  | .local _ .vmem, ⟨3, _⟩ => ⟨S128x1536, .i32⟩
  | .local _ .vmem, ⟨4, _⟩ => ⟨S8x128x1536, .i32⟩
  | .local _ .vmem, ⟨5, _⟩ => ⟨S8x128x1536, .i32⟩
  | _, _ => ⟨S64x512x512x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S8x128x1536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x1536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S4096 : S_.BroadcastsInDim S4096 (![] : Fin 0 → Fin S4096.rank)
  bcast_S_S512x512x3 : S_.BroadcastsInDim S512x512x3 (![] : Fin 0 → Fin S512x512x3.rank)
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  shapeCasts_S64x512x512x3_S64x512x1536 : S64x512x512x3.ShapeCasts S64x512x1536
  shapeCasts_S512x512x3_S512x1536 : S512x512x3.ShapeCasts S512x1536
  inb_S8x128x1536_S8x128x1536_0_0_0 : ∀ a, (![0, 0, 0] : Fin 3 → Nat) a + S8x128x1536.size a ≤ S8x128x1536.size a
  h_S8x128x1536 : 0 < S8x128x1536.numel
  shapeCasts_S8x128x1536_S8x128x1536 : S8x128x1536.ShapeCasts S8x128x1536
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  shapeCasts_S128x1536_S1x128x1536 : S128x1536.ShapeCasts S1x128x1536
  broadcasts_S1x128x1536_S8x128x1536 : S1x128x1536.Broadcasts S8x128x1536
  shapeCasts_S64x512x1536_S64x512x512x3 : S64x512x1536.ShapeCasts S64x512x512x3
  scatter_S512x512x3_S4096x3_S4096_n_012_012_1_wf : ScatterDims.WF S512x512x3 S4096x3 S4096 [] [0, 1, 2] [0, 1, 2] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1536.size a ≤ S64x512x1536.size a
  hwx0_0 : ∀ i : grid0.Coords, EltTy.bits .i32 = 32 ∨ (Rect.block (s := S64x512x1536) S8x128x1536.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1536.size a ≤ S512x1536.size a
  hwx0_1 : ∀ i : grid0.Coords, EltTy.bits .i32 = 32 ∨ (Rect.block (s := S512x1536) S128x1536.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x1536.size a ≤ S64x512x1536.size a
  hwx0_2 : ∀ i : grid0.Coords, EltTy.bits .i32 = 32 ∨ (Rect.block (s := S64x512x1536) S8x128x1536.size (cc0_transform_2 i) (hinb0_2 i)).WholeWords (EltTy.packing .i32)

variable [Facts₀]

def scatter_S512x512x3_S4096x3_S4096_n_012_012_1 : ScatterDims S512x512x3 S4096x3 S4096 where
  updateWindowDims := []
  insertedWindowDims := [0, 1, 2]
  scatterDimsToOperandDims := [0, 1, 2]
  indexVectorDim := 1
  wf := scatter_S512x512x3_S4096x3_S4096_n_012_012_1_wf

abbrev win0_0 : Pipeline.Window sig grid0 :=
  Pipeline.Window.ofSpec (Memref.whole main_v31) S8x128x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8x128x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x512x512x3 : Shape := ⟨4, ![64, 512, 512, 3]⟩
abbrev S4096x4 : Shape := ⟨2, ![4096, 4]⟩
abbrev S4096x1 : Shape := ⟨2, ![4096, 1]⟩
abbrev S4096 : Shape := ⟨1, ![4096]⟩
abbrev S_ : Shape := ⟨0, ![]⟩
abbrev S512x512x3 : Shape := ⟨3, ![512, 512, 3]⟩
abbrev S4096x3 : Shape := ⟨2, ![4096, 3]⟩
abbrev S1x512x512x3 : Shape := ⟨4, ![1, 512, 512, 3]⟩

abbrev nBuf : Space → Nat
  | .hbm => 44
  | .vmem => 0
  | .smem => 0
  | _ => 0

abbrev bufTy : (tb : Table) → Fin (tcTables nBuf tb) → BufTy
  | .hbm, ⟨0, _⟩ => ⟨S64x512x512x3, .i32⟩
  | .hbm, ⟨1, _⟩ => ⟨S4096x4, .i32⟩
  | .hbm, ⟨2, _⟩ => ⟨S4096x1, .i32⟩
  | .hbm, ⟨3, _⟩ => ⟨S4096, .i32⟩
  | .hbm, ⟨4, _⟩ => ⟨S4096x1, .i32⟩
  | .hbm, ⟨5, _⟩ => ⟨S4096, .i32⟩
  | .hbm, ⟨6, _⟩ => ⟨S4096x1, .i32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S512x512x3, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S4096x3, .i32⟩
  | .hbm, ⟨40, _⟩ => ⟨S512x512x3, .i32⟩
  | .hbm, ⟨41, _⟩ => ⟨S1x512x512x3, .i32⟩
  | .hbm, ⟨42, _⟩ => ⟨S64x512x512x3, .i32⟩
  | .hbm, ⟨43, _⟩ => ⟨S64x512x512x3, .i32⟩
  | _, _ => ⟨S64x512x512x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  slices_S4096x4_S4096x1_0_0 : S4096x4.Slices ![0, 0] S4096x1
  shapeCasts_S4096x1_S4096 : S4096x1.ShapeCasts S4096
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S4096 : S_.BroadcastsInDim S4096 (![] : Fin 0 → Fin S4096.rank)
  bcast_S_S512x512x3 : S_.BroadcastsInDim S512x512x3 (![] : Fin 0 → Fin S512x512x3.rank)
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  bcast_S512x512x3_S1x512x512x3_1_2_3 : S512x512x3.BroadcastsInDim S1x512x512x3 (![1, 2, 3] : Fin 3 → Fin S1x512x512x3.rank)
  bcast_S1x512x512x3_S64x512x512x3_0_1_2_3 : S1x512x512x3.BroadcastsInDim S64x512x512x3 (![0, 1, 2, 3] : Fin 4 → Fin S64x512x512x3.rank)
  scatter_S512x512x3_S4096x3_S4096_n_012_012_1_wf : ScatterDims.WF S512x512x3 S4096x3 S4096 [] [0, 1, 2] [0, 1, 2] 1

variable [Facts₀]

def scatter_S512x512x3_S4096x3_S4096_n_012_012_1 : ScatterDims S512x512x3 S4096x3 S4096 where
  updateWindowDims := []
  insertedWindowDims := [0, 1, 2]
  scatterDimsToOperandDims := [0, 1, 2]
  indexVectorDim := 1
  wf := scatter_S512x512x3_S4096x3_S4096_n_012_012_1_wf

class Facts : Prop extends Facts₀ where

variable [Facts]
-- ==== Proof.BitsRegion.lean ====
/-
  @main of this program is: forty-one host operations (they build the per-pixel mask word by scatter-add and
  re-lay the image [64,512,512,3] -> [64,512,1536] and the mask [512,512,3] -> [512,1536]), ONE pallas_call on the
  grid 4 x 8, and one host reshape of its result back to [64,512,512,3].  At grid point (hi, bi) the kernel body
  is handed block (bi, hi, 0) of the image, 8 x 128 x 1536 words, and block (hi, 0) of the mask, 128 x 1536 words; it
  stores, whole, the image block XOR the mask block repeated along the leading axis.

  This module runs that program at any instance F: the body by symbolic execution (one whole store, so the output
  buffer is the store's payload), the proof data (each input window's buffer at its block of the array as the region
  finds it; the output window's at the payload), the launch around the region with the one host line after it, and the
  two facts read off the run: the argument arrays end as launched, and the result array ends as the last reshape of
  what the pipeline wrote back.
-/
import proofs.«423138_j72138270703956_2_alg».proof.Proof.Gen.Kernel.Launch
import proofs.«423138_j72138270703956_2_alg».proof.Proof.Gen.Kernel.Skeleton
import proofs.«423138_j72138270703956_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers of the core, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's three arrays (it writes the final result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes the image argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor the fault-site argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The reshape after the region does not write the image argument, and the image argument is no array of the
    pipeline (the pipeline stages its re-laid copy): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the fault-site argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`: its rectangle of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's buffer holds the image block of the point when the body is called (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The mask window's buffer holds the mask block of the point when the body is called: the window is fetched when the
    outer grid coordinate moves, and in between its block index does not move and the body leaves the buffer as found. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 8 x 128 x 1536 buffer and the whole 128 x 1536 buffer, as the body's accesses name them. -/
abbrev rImg : Rect S8x128x1536 := Rect.unit (s := S8x128x1536) ![0, 0, 0] S8x128x1536.size inb_S8x128x1536_S8x128x1536_0_0_0
abbrev rMsk : Rect S128x1536 := Rect.unit (s := S128x1536) ![0, 0] S128x1536.size inb_S128x1536_S128x1536_0_0

/-- What the body leaves in the output window's buffer, from the two input blocks: its one store, of the XOR payload. -/
def outBlk (x0 : Vec F S8x128x1536 .i32) (x1 : Vec F S128x1536 .i32) : Vec F S8x128x1536 .i32 :=
  View.canon [⟨rImg, k0_pay1 (View.ld x0 rImg) (View.ld x1 rMsk)⟩]

/-- The one store covers the buffer. -/
theorem outCover (p0 : Vec F S8x128x1536 .i32) (y : S8x128x1536.Idx) :
    ∃ pc ∈ ([⟨rImg, p0⟩] : List (View.Piece (Elt F) S8x128x1536 .i32)), y ∈ pc.1.set :=
  View.cover_of_tiled [⟨rImg, p0⟩] S8x128x1536.size (by rfl) y

set_option maxHeartbeats 1000000 in
/-- The body on whole buffers, the inputs' at contents `x0`, `x1` and the output's at anything: it runs, leaves the
    inputs as they were and the output at `outBlk x0 x1`. -/
theorem sound_kernel (c : Dev nD) (E : Set ℕ) (i : grid0.Coords) (arg2 : Memref sig .tc .vmem S8x128x1536 .i32) (harg2 : arg2.IsWhole) (arg3 : Memref sig .tc .vmem S128x1536 .i32) (harg3 : arg3.IsWhole) (arg4 : Memref sig .tc .vmem S8x128x1536 .i32) (harg4 : arg4.IsWhole)
    (x0 : Vec F S8x128x1536 .i32) (x1 : Vec F S128x1536 .i32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__xor_kernel i arg2 harg2 arg3 harg3 arg4 harg4) K := by
  simp only [cc0__xor_kernel_eq_skeleton]; unfold cc0__xor_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The pipeline's proof data on core `c`: the arrays as the region finds them; after the body at point `t` the two
    input buffers at their blocks and the output buffer at `outBlk` of them; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the pipeline holds what the proof data
    computes, and every other unscoped buffer what the reshape after the region leaves of the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run's end read at the result buffer and at the two arguments: the result is the final reshape applied to the
    region's exit contents, the arguments are as launched. -/
theorem run_read : θ_run defs (onTc (τ := τ) (main (F := F))) ⟨m, fun _ => 0, ρ⟩ (fun r => ∀ c : Dev nD,
      r.2.mem ((c.tc : Thread nD τ).loc main_v34) = Pipeline.afterTail₀ cfgs (dats m) 0 (V0 m) [hostOps1] c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v34 (Pipeline.mem_restRefs_of main_v34 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

/-- The frame: @main runs to the end and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.Kernel.Region

end
-- ==== Proof.IdealRegion.lean ====
/-
  @main of this program is: forty-one host operations (they build the per-pixel mask word by scatter-add and
  re-lay the image [64,512,512,3] -> [64,512,1536] and the mask [512,512,3] -> [512,1536]), ONE pallas_call on the
  grid 4 x 8, and one host reshape of its result back to [64,512,512,3].  At grid point (hi, bi) the kernel body
  is handed block (bi, hi, 0) of the image, 8 x 128 x 1536 words, and block (hi, 0) of the mask, 128 x 1536 words; it
  stores, whole, the image block XOR the mask block repeated along the leading axis.

  This module runs that program at any instance F: the body by symbolic execution (one whole store, so the output
  buffer is the store's payload), the proof data (each input window's buffer at its block of the array as the region
  finds it; the output window's at the payload), the launch around the region with the one host line after it, and the
  two facts read off the run: the argument arrays end as launched, and the result array ends as the last reshape of
  what the pipeline wrote back.
-/
import proofs.«423138_j72138270703956_2_alg».proof.Proof.Gen.KernelIdeal.Launch
import proofs.«423138_j72138270703956_2_alg».proof.Proof.Gen.KernelIdeal.Skeleton
import proofs.«423138_j72138270703956_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents after the host operations before it. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only unscoped buffers of the core, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes none of the pipeline's three arrays (it writes the final result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes the image argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor the fault-site argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- The reshape after the region does not write the image argument, and the image argument is no array of the
    pipeline (the pipeline stages its re-laid copy): it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The same for the fault-site argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at grid point `t`: its rectangle of the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The image window's buffer holds the image block of the point when the body is called (it is fetched at every point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The mask window's buffer holds the mask block of the point when the body is called: the window is fetched when the
    outer grid coordinate moves, and in between its block index does not move and the body leaves the buffer as found. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole 8 x 128 x 1536 buffer and the whole 128 x 1536 buffer, as the body's accesses name them. -/
abbrev rImg : Rect S8x128x1536 := Rect.unit (s := S8x128x1536) ![0, 0, 0] S8x128x1536.size inb_S8x128x1536_S8x128x1536_0_0_0
abbrev rMsk : Rect S128x1536 := Rect.unit (s := S128x1536) ![0, 0] S128x1536.size inb_S128x1536_S128x1536_0_0

/-- What the body leaves in the output window's buffer, from the two input blocks: its one store, of the XOR payload. -/
def outBlk (x0 : Vec F S8x128x1536 .i32) (x1 : Vec F S128x1536 .i32) : Vec F S8x128x1536 .i32 :=
  View.canon [⟨rImg, k0_pay1 (View.ld x0 rImg) (View.ld x1 rMsk)⟩]

/-- The one store covers the buffer. -/
theorem outCover (p0 : Vec F S8x128x1536 .i32) (y : S8x128x1536.Idx) :
    ∃ pc ∈ ([⟨rImg, p0⟩] : List (View.Piece (Elt F) S8x128x1536 .i32)), y ∈ pc.1.set :=
  View.cover_of_tiled [⟨rImg, p0⟩] S8x128x1536.size (by rfl) y

set_option maxHeartbeats 1000000 in
/-- The body on whole buffers, the inputs' at contents `x0`, `x1` and the output's at anything: it runs, leaves the
    inputs as they were and the output at `outBlk x0 x1`. -/
theorem sound_kernel (c : Dev nD) (E : Set ℕ) (i : grid0.Coords) (arg2 : Memref sig .tc .vmem S8x128x1536 .i32) (harg2 : arg2.IsWhole) (arg3 : Memref sig .tc .vmem S128x1536 .i32) (harg3 : arg3.IsWhole) (arg4 : Memref sig .tc .vmem S8x128x1536 .i32) (harg4 : arg4.IsWhole)
    (x0 : Vec F S8x128x1536 .i32) (x1 : Vec F S128x1536 .i32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__xor_kernel i arg2 harg2 arg3 harg3 arg4 harg4) K := by
  simp only [cc0__xor_kernel_eq_skeleton]; unfold cc0__xor_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The proof data -/

/-- The pipeline's proof data on core `c`: the arrays as the region finds them; after the body at point `t` the two
    input buffers at their blocks and the output buffer at `outBlk` of them; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the pipeline holds what the proof data
    computes, and every other unscoped buffer what the reshape after the region leaves of the region's exit contents. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The run's end read at the result buffer and at the two arguments: the result is the final reshape applied to the
    region's exit contents, the arguments are as launched. -/
theorem run_read : θ_run defs (onTc (τ := τ) (main (F := F))) ⟨m, fun _ => 0, ρ⟩ (fun r => ∀ c : Dev nD,
      r.2.mem ((c.tc : Thread nD τ).loc main_v34) = Pipeline.afterTail₀ cfgs (dats m) 0 (V0 m) [hostOps1] c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v34 (Pipeline.mem_restRefs_of main_v34 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

/-- The frame: @main runs to the end and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_read m ρ)

end Cert.KernelIdeal.Region

end
-- ==== Proof.XorSpec.lean ====
/-
  The mathematics both programs share, stated over literal shapes and with no program in sight.

  An image is a word array over [64, 512, 512, 3] (batch, row, column, channel); a mask is a word array over
  [512, 512, 3].  The result is the image XOR the mask, the mask repeated over the batch: at index (b, y, x, ch) the
  word `image (b, y, x, ch) ^^^ mask (y, x, ch)`.

  One program computes exactly that.  The other first re-lays both arrays with the last two axes joined — the image
  as [64, 512, 1536] and the mask as [512, 1536], column and channel joined as 3 * x + ch —, XORs there (entry (b, y, j)
  with mask entry (y, j)), and re-lays the result back.  A re-laying keeps the row-major position of every entry, and the
  row-major position of (b, y, x, ch) in the four-axis array is that of (b, y, 3 * x + ch) in the three-axis one, so
  the two computations agree entry by entry (`relaid_xor`).  Inside one block of the joined layout the kernel
  repeats an [128, 1536] mask block along a new leading axis of extent 8 and XORs: entry (p, q, j) of the block meets
  mask-block entry (q, j) (`block_xor`).
-/
import Idealize.ShloMosaic.PureOps
import Idealize.ShloMosaic.Lib.Pipeline.Value

noncomputable section

namespace Cert.XorSpec

open Idealize.ShloMosaic

abbrev SImg : Shape := ⟨4, ![64, 512, 512, 3]⟩
abbrev SMask : Shape := ⟨3, ![512, 512, 3]⟩
abbrev SImgJ : Shape := ⟨3, ![64, 512, 1536]⟩
abbrev SMaskJ : Shape := ⟨2, ![512, 1536]⟩
abbrev SBlk : Shape := ⟨3, ![8, 128, 1536]⟩
abbrev SMBlk : Shape := ⟨2, ![128, 1536]⟩
abbrev SMBlk1 : Shape := ⟨3, ![1, 128, 1536]⟩

/-- The pixel-and-channel (y, x, ch) of an image index (b, y, x, ch). -/
def pix (i : SImg.Idx) : SMask.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- The result: the image XOR the mask repeated over the batch. -/
def result (x : SImg.Idx → BitVec 32) (mk : SMask.Idx → BitVec 32) : SImg.Idx → BitVec 32 :=
  fun i => IntOp.xori (x i) (mk (pix i))

/-- (y, j) of an index (b, y, j) of the joined layout. -/
def row (j : SImgJ.Idx) : SMaskJ.Idx := fun a => match a with
  | ⟨0, _⟩ => ⟨(j 1).val, (j 1).isLt⟩
  | ⟨1, _⟩ => ⟨(j 2).val, (j 2).isLt⟩

/-- The same XOR in the joined layout. -/
def joinedResult (x : SImgJ.Idx → BitVec 32) (mk : SMaskJ.Idx → BitVec 32) : SImgJ.Idx → BitVec 32 :=
  fun j => IntOp.xori (x j) (mk (row j))

/-- (b, y, 3 x + ch) of (b, y, x, ch). -/
def join (i : SImg.Idx) : SImgJ.Idx := fun a => match a with
  | ⟨0, _⟩ => ⟨(i 0).val, (i 0).isLt⟩
  | ⟨1, _⟩ => ⟨(i 1).val, (i 1).isLt⟩
  | ⟨2, _⟩ => ⟨(i 2).val * 3 + (i 3).val, by
      have h2 : (i 2).val < 512 := (i 2).isLt
      have h3 : (i 3).val < 3 := (i 3).isLt
      show (i 2).val * 3 + (i 3).val < 1536
      omega⟩

/-- Joining the last two axes keeps the row-major position. -/
theorem join_pos (i : SImg.Idx) : (SImgJ.rowMajor (join i)).val = (SImg.rowMajor i).val := by
  rw [Shape.rowMajor_val_three, Shape.rowMajor_val_four]
  show ((i 0).val * 512 + (i 1).val) * 1536 + ((i 2).val * 3 + (i 3).val)
    = (((i 0).val * 512 + (i 1).val) * 512 + (i 2).val) * 3 + (i 3).val
  omega

/-- The mask entry the joined layout pairs with (b, y, 3 x + ch) sits where (y, x, ch) does. -/
theorem pix_pos (i : SImg.Idx) : (SMask.rowMajor (pix i)).val = (SMaskJ.rowMajor (row (join i))).val := by
  rw [Shape.rowMajor_val_three, Shape.rowMajor_val_two]
  show ((i 1).val * 512 + (i 2).val) * 3 + (i 3).val = (i 1).val * 1536 + ((i 2).val * 3 + (i 3).val)
  omega

/-- Re-lay, XOR in the joined layout, re-lay back: the plain XOR. -/
theorem relaid_xor (x : SImg.Idx → BitVec 32) (mk : SMask.Idx → BitVec 32)
    (h1 : SImg.ShapeCasts SImgJ) (h2 : SMask.ShapeCasts SMaskJ) (h3 : SImgJ.ShapeCasts SImg) :
    shapeCast SImg (joinedResult (shapeCast SImgJ x h1) (shapeCast SMaskJ mk h2)) h3 = result x mk := by
  funext i
  rw [shapeCast_apply _ h3 i (join i) (join_pos i)]
  show IntOp.xori (shapeCast SImgJ x h1 (join i)) (shapeCast SMaskJ mk h2 (row (join i))) = IntOp.xori (x i) (mk (pix i))
  rw [shapeCast_apply x h1 (join i) i (join_pos i).symm, shapeCast_apply mk h2 (row (join i)) (pix i) (pix_pos i)]

/-- (q, j) of a block index (p, q, j). -/
def blockRow (j : SBlk.Idx) : SMBlk.Idx := fun a => match a with
  | ⟨0, _⟩ => ⟨(j 1).val, (j 1).isLt⟩
  | ⟨1, _⟩ => ⟨(j 2).val, (j 2).isLt⟩

/-- The body's arithmetic at an index of the block: the image block's word XOR the mask block's word of the same row
    and joined column (the casts to the same shape are identities, the new leading unit axis is repeated 8 times). -/
theorem block_xor (x0 : SBlk.Idx → BitVec 32) (x1 : SMBlk.Idx → BitVec 32)
    (h0 : SBlk.ShapeCasts SBlk) (h1 : SMBlk.ShapeCasts SMBlk) (h2 : SMBlk.ShapeCasts SMBlk1) (h3 : SMBlk1.Broadcasts SBlk)
    (j : SBlk.Idx) :
    xori (shapeCast SBlk x0 h0) (broadcastTo SBlk (shapeCast SMBlk1 (shapeCast SMBlk x1 h1) h2) h3) j
      = IntOp.xori (x0 j) (x1 (blockRow j)) := by
  show IntOp.xori (shapeCast SBlk x0 h0 j) (broadcastTo SBlk (shapeCast SMBlk1 (shapeCast SMBlk x1 h1) h2) h3 j) = _
  rw [shapeCast_self, shapeCast_self]
  have hb : broadcastTo SBlk (shapeCast SMBlk1 x1 h2) h3 j
      = shapeCast SMBlk1 x1 h2 (fun a => match a with
          | ⟨0, _⟩ => ⟨0, Nat.one_pos⟩
          | ⟨1, _⟩ => ⟨(j 1).val, (j 1).isLt⟩
          | ⟨2, _⟩ => ⟨(j 2).val, (j 2).isLt⟩) :=
    broadcastTo_apply _ h3 j _ (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)]
      | ⟨2, _⟩ => by show (j 2).val = if (1536 : Nat) = 1 then 0 else (j 2).val; rw [if_neg (by decide)])
  rw [hb, shapeCast_addUnit_apply]
  exact congrArg (fun k => IntOp.xori (x0 j) (x1 k)) (funext fun a => match a with
    | ⟨0, _⟩ => rfl
    | ⟨1, _⟩ => rfl)

end Cert.XorSpec

end
-- ==== Proof.LibNary3.lean ====
/-
  A host operation with THREE operand buffers (a concatenation of three arrays): what it leaves at its own result
  buffer, with each operand's contents named AT ITS OWN buffer.  The general statement for n operands reads the
  operands through a function of the operand's number, `fun k => F (xs k)`; for the literal family `![x, a, b]` that
  function is the three contents in order, `Fin.cons (F x) (Fin.cons (F a) (Fin.cons (F b) _))`, and in that form the
  contents of x, a and b can be rewritten further, one host operation at a time.  The simplifier pass below is the
  usual one — each operation's result at its own buffer is its function of its operands' contents, at any other buffer
  what was there before — with this three-operand step added.
-/
import Idealize.ShloMosaic.Lib.StableHlo.Run

noncomputable section

namespace Cert.LibNary3

open Idealize.ShloMosaic Idealize.ShloMosaic.StableHlo

variable {τ : Topo} {sig : RefSig} {Val : EltTy → Type}
variable {x a b y : Ref sig .tc}

/-- The result of a three-operand host operation at its result buffer: its function of the three operands' contents,
    each read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result buffer un-indexed, for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents of one buffer after a literal list of host operations, as the operations' composed term of the
    launch contents, in ONE simplifier pass (every shared intermediate visited once): each operation's result at its
    own buffer is its function of its operands' contents, at any other buffer what was there; a three-operand
    operation by the lemma above. -/
macro "after_results_three_simp" : tactic =>
  `(tactic| (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3

end
-- ==== Proof.IdealValue.lean ====
/-
  What the idealized kernel program's result array holds after the run, as ONE function of the two argument arrays.

  The pipeline's output array (the joined layout [64, 512, 1536]) is covered by the 32 blocks the grid points write
  back: point t = 8 * hi + bi writes block (bi, hi, 0), rows 8 bi .. 8 bi + 7 of the batch and 128 hi .. 128 hi + 127 of
  the image rows, all 1536 joined columns.  What it writes is the XOR of the image block at the same place and of mask
  block (hi, 0), entry (p, q, j) meeting mask-block entry (q, j): so every block is the restriction of the one
  whole-array XOR of the joined layout, and the array ends at that XOR.  The arrays the region finds are the host
  operations' results: the image re-laid, and the scatter-add mask re-laid (the mask's own term is carried as the one
  function of the fault-site argument that the reference program computes too); and the program's result is the
  region's output re-laid back.  Re-laying there and back around the joined XOR is the plain XOR of image and mask.
-/
import proofs.«423138_j72138270703956_2_alg».proof.Proof.IdealRegion
import proofs.«423138_j72138270703956_2_alg».proof.Proof.XorSpec
import proofs.«423138_j72138270703956_2_alg».proof.Proof.LibNary3
import proofs.«423138_j72138270703956_2_alg».proof.Proof.Gen.ReferenceIdeal.Read
import Idealize.ShloMosaic.Lib.Pipeline.Value
import Idealize.ShloMosaic.Lib.StableHlo.Run

set_option maxRecDepth 16384

noncomputable section

namespace Cert.KernelIdeal.RegionValue

open Cert.KernelIdeal.Gen Cert.KernelIdeal.Region Cert.LibNary3
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's payload at an index of the block. -/
theorem pay_apply (x0 : Vec F S8x128x1536 .i32) (x1 : Vec F S128x1536 .i32) (j : S8x128x1536.Idx) :
    k0_pay1 x0 x1 j = IntOp.xori (x0 j) (x1 (Cert.XorSpec.blockRow j)) := by
  unfold k0_pay1
  exact Cert.XorSpec.block_xor x0 x1 _ _ _ _ j

/-- The three index maps over the grid: the image window and the output window move together; the mask window's
    row-block is the output's, and neither moves along the joined columns. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (1 : Fin 3)
    ∧ win0_1.index t (1 : Fin 2) = 0
    ∧ win0_2.index t (2 : Fin 3) = 0 :=
  (by decide +kernel : ∀ t : Fin grid0.N, _)

/-- Every block of the output array is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- What point `t` writes back is block `t` of the joined XOR of the two arrays the region finds. -/
theorem flushed_eq (c : Dev nD) (t : Fin cfg0.N) :
    (dats m 0 c).flushed 2 t = ((cfg0.win 2).blk t).view.read (Elt F)
      (Cert.XorSpec.joinedResult (V m c main_v31) (V m c main_v32)) := by
  show (cfg0.win 2).cut (grid0.coords t) ((dats m 0 c).after 2 t) = _
  rw [after0_2]
  unfold outBlk
  rw [View.canon_unit_zero hz3]
  simp only [View.ld_unit_zero (S := S8x128x1536) hz3, View.ld_unit_zero (S := S128x1536) hz2]
  obtain ⟨e0, e1, e2, e3, e4, e5⟩ := idx_facts t
  funext j
  refine (pay_apply (F := F) (iblk m c 0 t) (iblk m c 1 t) j).trans ?_
  show IntOp.xori (V m c main_v31 (((cfg0.win 0).blk t).view.emb j)) (V m c main_v32 (((cfg0.win 1).blk t).view.emb (Cert.XorSpec.blockRow j)))
    = IntOp.xori (V m c main_v31 (((cfg0.win 2).blk t).view.emb j)) (V m c main_v32 (Cert.XorSpec.row (((cfg0.win 2).blk t).view.emb j)))
  have h0 : ((cfg0.win 0).blk t).view.emb j = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 1536 + 1 * (j 2).val = win0_2.index t (2 : Fin 3) * 1536 + 1 * (j 2).val; omega
  have h1 : ((cfg0.win 1).blk t).view.emb (Cert.XorSpec.blockRow j) = Cert.XorSpec.row (((cfg0.win 2).blk t).view.emb j) := by
    funext a; apply Fin.ext
    match a with
    | ⟨0, _⟩ => show win0_1.index t (0 : Fin 2) * 128 + 1 * (j 1).val = win0_2.index t (1 : Fin 3) * 128 + 1 * (j 1).val; omega
    | ⟨1, _⟩ => show win0_1.index t (1 : Fin 2) * 1536 + 1 * (j 2).val = win0_2.index t (2 : Fin 3) * 1536 + 1 * (j 2).val; omega
  rw [h0, h1]

/-- An index of the output array is in point `t`'s block iff each coordinate is in the block's range on its axis. -/
theorem mem_blk (t : Fin cfg0.N) (i : S64x512x1536.Idx) :
    i ∈ ((cfg0.win 2).blk t).view.set ↔ ∀ a : Fin 3, win0_2.index t a * S8x128x1536.size a ≤ (i a).val ∧ (i a).val < win0_2.index t a * S8x128x1536.size a + S8x128x1536.size a := by
  show i ∈ ((View.whole main_v33).slice (win0_2.rect t)).set ↔ _
  rw [View.set_slice_whole, Rect.mem_set_unit]
  exact Iff.rfl

/-- The blocks cover the array: index (b, y, j) is in the block of the point with bi = b / 8 and hi = y / 128. -/
theorem cover (i : S64x512x1536.Idx) :
    ∃ t : Fin cfg0.N, (cfg0.win 2).flush t = true ∧ i ∈ ((cfg0.win 2).blk t).view.set := by
  have hi0 : (i 0).val < 64 := (i 0).isLt
  have hi1 : (i 1).val < 512 := (i 1).isLt
  have hi2 : (i 2).val < 1536 := (i 2).isLt
  obtain ⟨t, ht⟩ := idx_onto ⟨(i 0).val / 8, by omega⟩ ⟨(i 1).val / 128, by omega⟩
  have q0 : win0_2.index t (0 : Fin 3) = (i 0).val / 8 := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 1536 ≤ (i 2).val ∧ (i 2).val < win0_2.index t (2 : Fin 3) * 1536 + 1536; omega

/-- The output array after the run: the joined XOR of the arrays the region finds. -/
theorem final (c : Dev nD) :
    (dats m 0 c).arrAt 2 cfg0.N = Cert.XorSpec.joinedResult (V m c main_v31) (V m c main_v32) :=
  (dats m 0 c).arrAt_eq_of_cover 2 _ (fun t _ => flushed_eq m c t) cover

/-- The image array the region finds: the image argument with column and channel joined. -/
theorem V_image (c : Dev nD) : (V m c main_v31 : S64x512x1536.Idx → Elt F .i32)
    = shapeCast S64x512x1536 (m ((c : Thread nD τ).loc main_arg0)) shapeCasts_S64x512x512x3_S64x512x1536 := by
  show StableHlo.after hostOps0 (fun b => m (c, b)) (Proc.devRef .tc main_v31) = _
  after_results
  rfl

set_option maxHeartbeats 4000000 in
/-- The mask array the region finds: the scatter-add mask of the fault sites — the function of the fault-site
    argument the reference program computes as well — with column and channel joined. -/
theorem V_mask (c : Dev nD) : (V m c main_v32 : S512x1536.Idx → Elt F .i32)
    = shapeCast S512x1536 (Cert.ReferenceIdeal.Read.val_main_v30 (F := F) (m ((c : Thread nD τ).loc main_arg1))) shapeCasts_S512x512x3_S512x1536 := by
  show StableHlo.after hostOps0 (fun b => m (c, b)) (Proc.devRef .tc main_v32) = _
  after_results_three_simp
  rfl

/-- The program's result buffer after the reshape that follows the region: the region's output array re-laid. -/
theorem tail_result (c : Dev nD) :
    Pipeline.afterTail₀ cfgs (dats m) 0 (V0 m) [hostOps1] c main_v34
      = shapeCast S64x512x512x3 ((dats m 0 c).arrAt 2 cfg0.N) shapeCasts_S64x512x1536_S64x512x512x3 := by
  unfold Pipeline.afterTail₀
  show StableHlo.after hostOps1 _ (Proc.devRef .tc main_v34) = _
  after_results
  exact congrArg (fun y => shapeCast S64x512x512x3 y shapeCasts_S64x512x1536_S64x512x512x3)
    (Pipeline.withArrays_arr spec0 launch0.win.arr_inj c _ _ 2)

/-- The result buffer as one function of the arguments: the image XOR the mask repeated over the batch. -/
theorem value (c : Dev nD) :
    Pipeline.afterTail₀ cfgs (dats m) 0 (V0 m) [hostOps1] c main_v34
      = Cert.XorSpec.result (m ((c : Thread nD τ).loc main_arg0))
          (Cert.ReferenceIdeal.Read.val_main_v30 (F := F) (m ((c : Thread nD τ).loc main_arg1))) := by
  rw [tail_result, final, V_image, V_mask]
  exact Cert.XorSpec.relaid_xor _ _ _ _ _

/-- The run: @main terminates with its result at that function of the arguments, and the arguments as launched. -/
theorem run : θ_run defs (onTc (τ := τ) (main (F := F))) ⟨m, fun _ => 0, ρ⟩ (fun r => ∀ c : Dev nD,
      r.2.mem ((c.tc : Thread nD τ).loc main_v34)
        = Cert.XorSpec.result (m ((c.tc : Thread nD τ).loc main_arg0))
            (Cert.ReferenceIdeal.Read.val_main_v30 (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (value m c), (h c).2⟩) (run_read m ρ)

end Cert.KernelIdeal.RegionValue

end
-- ==== Proof.RefValue.lean ====
/-
  The reference program's result, index by index: it broadcasts the scatter-add mask [512, 512, 3] over the batch
  (first to [1, 512, 512, 3], then to [64, 512, 512, 3]) and XORs the image with it, so entry (b, y, x, ch) is
  `image (b, y, x, ch) ^^^ mask (y, x, ch)`: the two broadcasts read the mask at the index's last three coordinates.
-/
import proofs.«423138_j72138270703956_2_alg».proof.Proof.Gen.ReferenceIdeal.Read
import proofs.«423138_j72138270703956_2_alg».proof.Proof.XorSpec

noncomputable section

namespace Cert.ReferenceIdeal.RefValue

open Cert.ReferenceIdeal Cert.ReferenceIdeal.Read Idealize.ShloMosaic

variable {F : FTy → Type} [FloatOps F]

/-- The reference's last stage is the plain XOR of the image with the mask repeated over the batch. -/
theorem result_eq (x0 : (⟨S64x512x512x3, .i32⟩ : BufTy).Contents (Elt F)) (x1 : (⟨S4096x4, .i32⟩ : BufTy).Contents (Elt F)) :
    val_main_v33 (F := F) x0 x1 = Cert.XorSpec.result x0 (val_main_v30 (F := F) x1) := by
  funext i
  rw [val_main_v33_apply, val_main_v32_apply, val_main_v31_apply]
  exact congrArg (fun k => IntOp.xori (x0 i) (val_main_v30 (F := F) x1 k)) (funext fun a => match a with
    | ⟨0, _⟩ => rfl
    | ⟨1, _⟩ => rfl
    | ⟨2, _⟩ => rfl)

end Cert.ReferenceIdeal.RefValue

end
-- ==== Proof.lean ====
/-
  The kernel flips bits of an image batch: `image ^^^ mask`, the mask [512, 512, 3] built on the host by a scatter-add
  of `1 <<< bit` at the fault sites (y, x, ch) and repeated over the batch of 64.  The reference does this in one
  host XOR against the broadcast mask.  The kernel program builds the same mask by the same host operations, joins
  column and channel of both arrays ([64, 512, 512, 3] -> [64, 512, 1536], [512, 512, 3] -> [512, 1536]), XORs block by
  block in one pallas_call on a 4 x 8 grid (image block 8 x 128 x 1536 against mask block 128 x 1536 repeated along
  the leading axis), and splits the joined axis again.

  The claims.  Frames: each kernel program's @main runs to the end with both arguments unchanged (Proof/BitsRegion,
  Proof/IdealRegion: the body's one whole store, the launch around the region); the reference's frame is its run with
  the result dropped.  The idealization rewrote nothing (every value is an integer word), so `preserves` is `True`.
  Equivalence: the kernel program's result is `fun (b, y, x, ch) => image (b, y, x, ch) ^^^ mask (y, x, ch)`
  (Proof/IdealValue: the blocks tile the joined array and each is a restriction of the joined XOR; re-laying keeps
  row-major positions, Proof/XorSpec), and so is the reference's (Proof/RefValue), with `mask` the SAME function of
  the fault-site argument on both sides; the arguments agree, so the results are equal.  No law of arithmetic is
  needed beyond that, and the precondition is never opened.
-/
import proofs.«423138_j72138270703956_2_alg».proof.Defs
import proofs.«423138_j72138270703956_2_alg».proof.Proof.Gen.Kernel
import proofs.«423138_j72138270703956_2_alg».proof.Proof.Gen.Kernel.Skeleton
import proofs.«423138_j72138270703956_2_alg».proof.Proof.Gen.Kernel.Launch
import proofs.«423138_j72138270703956_2_alg».proof.Proof.Gen.Kernel.Points
import proofs.«423138_j72138270703956_2_alg».proof.Proof.Gen.KernelIdeal
import proofs.«423138_j72138270703956_2_alg».proof.Proof.Gen.KernelIdeal.Skeleton
import proofs.«423138_j72138270703956_2_alg».proof.Proof.Gen.KernelIdeal.Launch
import proofs.«423138_j72138270703956_2_alg».proof.Proof.Gen.KernelIdeal.Points
import proofs.«423138_j72138270703956_2_alg».proof.Proof.Gen.ReferenceIdeal
import proofs.«423138_j72138270703956_2_alg».proof.Proof.Gen.Pre_any_inputs
import proofs.«423138_j72138270703956_2_alg».proof.Proof.Gen.ReferenceIdeal.Run
import proofs.«423138_j72138270703956_2_alg».proof.Proof.Gen.ReferenceIdeal.Read
import proofs.«423138_j72138270703956_2_alg».proof.Proof.BitsRegion
import proofs.«423138_j72138270703956_2_alg».proof.Proof.IdealRegion
import proofs.«423138_j72138270703956_2_alg».proof.Proof.IdealValue
import proofs.«423138_j72138270703956_2_alg».proof.Proof.RefValue
import Idealize.ShloMosaic.Adequacy
import Idealize.ShloMosaic.Init

noncomputable section

namespace Cert.Proof

open Idealize.ShloMosaic Idealize.SL.Sem

/-- The word-level kernel program runs to the end and leaves its arguments as launched. -/
theorem frame_bits : Cert.frame_Kernel := fun m ρ _ => Cert.Kernel.Region.frame m ρ

/-- So does the idealized kernel program. -/
theorem frame_ideal : Cert.frame_KernelIdeal := fun m ρ _ => Cert.KernelIdeal.Region.frame m ρ

/-- The reference is host operations only: its frame is its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs end with the image XOR the scatter-add mask repeated over the batch, the mask the same function of
    the fault-site argument on both sides. -/
theorem algebraic : Cert.algebraic_KernelIdeal_ReferenceIdeal := by
  intro m ρ m' ρ' _ hagree
  refine ⟨fun c => Cert.XorSpec.result (m ((c.tc : Thread Cert.KernelIdeal.nD Cert.KernelIdeal.τ).loc Cert.KernelIdeal.main_arg0))
      (Cert.ReferenceIdeal.Read.val_main_v30 (F := Ideal) (m ((c.tc : Thread Cert.KernelIdeal.nD Cert.KernelIdeal.τ).loc Cert.KernelIdeal.main_arg1))),
    Cert.KernelIdeal.RegionValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_any_inputs.Gen.facts,
  frame_bits, frame_ideal, frame_ref, trivial, algebraic⟩

end Cert.Proof

end
